-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1 : Shape := ⟨2, ![1, 1]⟩
abbrev S2048x1024 : Shape := ⟨2, ![2048, 1024]⟩
abbrev S1x2048x1024 : Shape := ⟨3, ![1, 2048, 1024]⟩
abbrev S1 : Shape := ⟨1, ![1]⟩
abbrev S1x1x1 : Shape := ⟨3, ![1, 1, 1]⟩
abbrev S_ : Shape := ⟨0, ![]⟩
abbrev S1x1024 : Shape := ⟨2, ![1, 1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S1x1, .f32⟩
  | .hbm, ⟨10, _⟩ => ⟨S1x1024, .f32⟩
  | .hbm, ⟨11, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S_S1x1 : S_.BroadcastsInDim S1x1 (![] : Fin 0 → Fin S1x1.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  broadcasts_S1x1_S1024x1024 : S1x1.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  broadcasts_S1x1_S1x1024 : S1x1.Broadcasts S1x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S32768x1024.size a
  hwx1_4 : ∀ i : grid1.Coords, EltTy.bits .f32 = 32 ∨ (Rect.block (s := S32768x1024) S1024x1024.size (cc1_transform_4 i) (hinb1_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S32768x1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_cst_8 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  reducesTo_S32768x1024_S_d0_1 : S32768x1024.ReducesTo [0, 1] S_
  h_S_ : 0 < S_.numel
  bcast_S_S32768x1024 : S_.BroadcastsInDim S32768x1024 (![] : Fin 0 → Fin S32768x1024.rank)
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.K.Amax.lean ====
/-
  The first call: the running maximum of |x| over sixteen row tiles of 2048 rows.
  At tile 0 the one-entry output block is set to the tile's maximum; at every later tile it is replaced by the
  larger of what it held and the tile's maximum; it is written back once, after the last tile.
-/
import proofs.«164014_j30777735643613_1_alg».proof.Proof.Gen.Kernel.Launch
import proofs.«164014_j30777735643613_1_alg».proof.Proof.Gen.Kernel.Skeleton
import proofs.«164014_j30777735643613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running maximum -/

/-- What the output block holds after tile `n`: the first tile's maximum, then the larger of the previous value and
    the tile's own. -/
def acc0 (c : Dev nD) : (n : ℕ) → n < cfg0.N → Vec F S1x1 .f32
  | 0, hn => k0_pay1 (iblk0 V c 0 ⟨0, hn⟩)
  | n + 1, hn => k0_pay2 (iblk0 V c 0 ⟨n + 1, hn⟩) (acc0 c n (Nat.lt_of_succ_lt hn))

/-! ## The proof data -/

/-- The input's buffer holds its tile; the output's holds the running maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-! ## The tiles' cases -/

/-- The input is idle at no tile. -/
theorem live0_0 : ∀ i : grid0.Coords, cfg0.idle 0 i = false := fun _ => rfl

/-- The output is idle at no tile: the first store runs at tile 0, the second at every other. -/
theorem live0_1 : ∀ i : grid0.Coords, cfg0.idle 1 i = false := by decide +kernel

/-- The first branch is taken at tile 0 only; -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second at every other tile. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- The running maximum at tile 0: the tile's own. -/
theorem acc0_first (c : Dev nD) (t : Fin cfg0.N) (h0 : t.val = 0) :
    acc0 V c t.val t.isLt = k0_pay1 (iblk0 V c 0 t) := by
  obtain ⟨n, hn⟩ := t
  cases n with
  | zero => rfl
  | succ n => exact absurd h0 (Nat.succ_ne_zero n)

/-- The running maximum at a later tile: the larger of the one before and the tile's own. -/
theorem acc0_later (c : Dev nD) (t : Fin cfg0.N) (h0 : t.val ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd rfl h0
  | succ n => rfl

/-! ## What the body finds -/

/-- The input's buffer holds its tile at every point. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)

/-- After tile 0 the output's buffer holds the running maximum of the tile before: it is written back after the last tile only. -/
theorem before0_1 (c : Dev nD) (t : Fin cfg0.N) (h0 : t.val ≠ 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live0_1 (fun _ _ => rfl)]
  dsimp only [dat0]

/-! ## The body on whole buffers -/

/-- The zero offsets of a two-axis access, spelt as a constant. -/
theorem zero2 : (![0, 0] : Fin 2 → Nat) = fun _ => 0 := funext fun a => by fin_cases a <;> rfl

set_option maxHeartbeats 1000000 in
/-- At tile 0 the body, on the input's buffer at `x0` and the output's at anything, leaves the output's buffer at the
    tile's maximum: the one store covers the one-entry block. -/
theorem run0_first (c : Dev nD) (E : Set ℕ) (i : grid0.Coords) (arg1 : Memref sig .tc .vmem S2048x1024 .f32) (harg1 : arg1.IsWhole)
    (arg2 : Memref sig .tc .vmem S1x1 .f32) (harg2 : arg2.IsWhole) (h1 : k0_cond1 i = 1#1) (h2 : ¬k0_cond2 i = 1#1)
    (x0 : Vec F S2048x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__amax_kernel i arg1 harg1 arg2 harg2) K := by
  simp only [cc0__amax_kernel_eq_skeleton]; unfold cc0__amax_kernel_skel
  unfold owns
  iintro ⟨⟨%f0, %hf0, H0⟩, ⟨%d1, %f1, -, H1⟩, Hk⟩
  obtain rfl := harg1.eq_unread hf0
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zero2 inb_S1x1_S1x1_0_0 y⟩)]
  rw [View.canon_unit_zero zero2]
  simp only [View.readAt_eq_ld, harg1.read_unread, View.ld_unit_zero (S := S2048x1024) zero2]

set_option maxHeartbeats 1000000 in
/-- At a later tile the body, on the input's buffer at `x0` and the output's at `xo`, leaves the output's buffer at the
    larger of `xo` and the tile's maximum. -/
theorem run0_later (c : Dev nD) (E : Set ℕ) (i : grid0.Coords) (arg1 : Memref sig .tc .vmem S2048x1024 .f32) (harg1 : arg1.IsWhole)
    (arg2 : Memref sig .tc .vmem S1x1 .f32) (harg2 : arg2.IsWhole) (h1 : ¬k0_cond1 i = 1#1) (h2 : k0_cond2 i = 1#1)
    (x0 : Vec F S2048x1024 .f32) (xo : Vec F S1x1 .f32) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay2 x0 xo)) -∗ K ⟨⟩))
      ⊢ wp frame (wpE (defs₀ (F := F)) Variants.none c none) E (cc0__amax_kernel i arg1 harg1 arg2 harg2) K := by
  simp only [cc0__amax_kernel_eq_skeleton]; unfold cc0__amax_kernel_skel
  unfold owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zero2 inb_S1x1_S1x1_0_0 y⟩)]
  rw [View.canon_unit_zero zero2]
  simp only [View.readAt_eq_ld, harg1.read_unread, harg2.read_unread, View.ld_unit_zero (S := S2048x1024) zero2,
    View.ld_unit_zero (S := S1x1) zero2]

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any tile: the input's buffer holds its tile; at tile 0 the output's buffer holds anything and the
    first branch sets it; at a later tile it holds the running maximum of the tile before and the second branch
    updates it. The invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [acc0_first V c t h0]
    iintro ⟨HΦ, Ho, ⟨%d0, H0⟩, ⟨%d1, H1⟩⟩
    iapply (run0_first c Set.univ (grid0.coords t) _ _ _ _ ((hcond0_1 t).mpr h0) (fun h => (hcond0_2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_later V c t h0]
    simp only [before0_1 V c t h0]
    iintro ⟨HΦ, Ho, ⟨%d0, H0⟩, ⟨%d1, H1⟩⟩
    iapply (run0_later c Set.univ (grid0.coords t) _ _ _ _ (fun h => h0 ((hcond0_1 t).mp h)) ((hcond0_2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation of the first call, at every tile. -/
theorem body_obligation0 (c : Dev nD) : BodyObligation (dat0 (F := F) V c) (defs₀ (F := F)) Variants.none () Set.univ := by
  intro t
  rw [bigSep_W0, bigSep_W0]
  rw [live0_1 (cfg0.grid.coords t)]
  exact sound_body0 V c t

end Cert.Kernel.Hand

end
-- ==== Proof.K.Linear.lean ====
/-
  The second call: for each tile of 1024 rows of x, quantise the tile by the per-tensor scale, quantise the whole
  weight matrix row by row, multiply, rescale and add the bias.  Every tile writes its own output block.
-/
import proofs.«164014_j30777735643613_1_alg».proof.Proof.Gen.Kernel.Launch
import proofs.«164014_j30777735643613_1_alg».proof.Proof.Gen.Kernel.Skeleton
import proofs.«164014_j30777735643613_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- Each input's buffer holds its block (the tile of x; the whole weights, bias row and scale); the output's holds
    the body's one stored value, a function of the four. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 3 t) (iblk1 V c 0 t) (iblk1 V c 1 t) (iblk1 V c 2 t) := by dsimp only [dat1]

/-! ## Each input's buffer holds its block

An input window's current buffer holds the window's block at every tile, whether the block was fetched at that tile
or at an earlier one: where nothing is fetched the block index has not moved, and the body leaves every input's buffer
as it found it.  The tile of x moves at every tile; the weights, the bias row and the scale are fetched once, at the
first tile, and their one block is the whole array. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- Every access of the body is to a whole buffer: the rectangle at offsets zero of the buffer's own sizes. -/
theorem offsets_zero : (![0, 0] : Fin 2 → Nat) = fun _ => 0 := funext fun a => by fin_cases a <;> rfl

set_option maxHeartbeats 1000000 in
/-- The body on whole buffers — the tile of x at `x0`, the weights at `x1`, the bias row at `x2`, the scale at `x3`,
    the output at anything — runs to the continuation holding the four inputs as they were and the output at the
    payload of the four: it reads each input whole, reads the output (a value it does not use), and stores the
    payload over the whole output, so that what the output buffer reads afterwards is that payload, whatever it
    held before. -/
theorem sound_kernel1 (c : Dev nD) (E : Set ℕ) (i : grid1.Coords)
    (arg1 : Memref sig .tc .vmem S1024x1024 .f32) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S1x1 .f32) (harg4 : arg4.IsWhole)
    (arg5 : Memref sig .tc .vmem S1024x1024 .f32) (harg5 : arg5.IsWhole)
    (x0 : Vec F S1024x1024 .f32) (x1 : Vec F S1024x1024 .f32) (x2 : Vec F S1x1024 .f32) (x3 : Vec F S1x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x3 x0 x1 x2)) -∗ K ⟨⟩))
      ⊢ wp frame (wpE (defs₀ (F := F)) Variants.none c none) E
          (cc1__fp8_linear_kernel i arg1 harg1 arg2 harg2 arg3 harg3 arg4 harg4 arg5 harg5) K := by
  simp only [cc1__fp8_linear_kernel_eq_skeleton]; unfold cc1__fp8_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the output buffer, so the buffer reads as the stored value; each whole-buffer load read the
  -- buffer's contents
  rw [View.read_writes_eq_canon _ _ _ (fun y => ⟨_, List.mem_singleton_self _, View.mem_set_unit_zero offsets_zero inb_S1024x1024_S1024x1024_0_0 y⟩),
    View.canon_unit_zero offsets_zero]
  simp only [View.readAt_eq_ld, View.ld_unit_zero (S := S1024x1024) offsets_zero,
    View.ld_unit_zero (S := S1x1024) offsets_zero, View.ld_unit_zero (S := S1x1) offsets_zero]

/-! ## The body obligation, at a generic tile -/

/-- What the body is called with at tile `t`: the invariant, the core's debts, and each window's current buffer, the
    inputs' at what they hold before the body and the output's at some contents; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the four inputs' buffers hold their blocks, so the body's triple applies at those blocks; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second call, at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main: the first call, seven host operations, the second call.
  Between two items every unscoped buffer is held whole at named contents: as launched (`Wa`); after the first call
  its result array at what its write-backs leave (`Wb`); after the host operations (`Wc`); after the second call
  its result array at what its write-backs leave (`Wd`).  Every weakly fair execution ends with every unscoped
  buffer at `Wd`; the three argument arrays are written by no item, so they end as launched.
-/
import proofs.«164014_j30777735643613_1_alg».proof.Proof.Gen.Kernel.Launch
import proofs.«164014_j30777735643613_1_alg».proof.Proof.Gen.Kernel.Skeleton
import proofs.«164014_j30777735643613_1_alg».proof.Proof.Gen.Kernel.Points
import proofs.«164014_j30777735643613_1_alg».proof.Proof.Gen.Kernel.Regions
import proofs.«164014_j30777735643613_1_alg».proof.Proof.K.Amax
import proofs.«164014_j30777735643613_1_alg».proof.Proof.K.Linear
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev Wa (c : Dev nD) : Valuation τ sig (Elt F) := fun b => m (c, b)
/-- The same read at the TensorCore's references: what the first call is entered with. -/
abbrev Va : (c : Dev nD) → (b : Ref sig .tc) → Buf (Elt F) ((c : Thread nD τ).loc b) := fun c b => Wa m c b
/-- After the first call: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- After the seven host operations: what the second call is entered with. -/
abbrev Wc : Dev nD → Valuation τ sig (Elt F) := fun c => StableHlo.after hostOps1 (Wb m c)
abbrev Vc : (c : Dev nD) → (b : Ref sig .tc) → Buf (Elt F) ((c : Thread nD τ).loc b) := fun c b => Wc m c b
/-- After the second call: its arrays at what the pipeline leaves, every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-- The host operations write none of the references outside their list of results. -/
theorem Wc_of (c : Dev nD) (r : Ref sig .tc) (h : r ∉ hostOps1_W) : Wc m c (Proc.devRef .tc r) = Wb m c (Proc.devRef .tc r) :=
  StableHlo.after_of_writes_sub hostOps1 _ hostOps1_writes h

/-! ## The proof data family and what rides beside the buffers -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wd m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (Wb m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds each unscoped buffer of each core at `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-! ## The argument arrays end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := (Wd_arr m c 0).trans (((dat1 (Vc m) c).arrAt_in 0 rfl _).trans (A_eq1 (Vc m) c 0))
    _ = Wb m c (Proc.devRef .tc main_arg0) := Wc_of m c main_arg0 (by decide)
    _ = Wa m c (Proc.devRef .tc main_arg0) := (Wb_arr m c 0).trans (((dat0 (Va m) c).arrAt_in 0 rfl _).trans (A_eq0 (Va m) c 0))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := (Wd_arr m c 1).trans (((dat1 (Vc m) c).arrAt_in 1 rfl _).trans (A_eq1 (Vc m) c 1))
    _ = Wb m c (Proc.devRef .tc main_arg1) := Wc_of m c main_arg1 (by decide)
    _ = Wa m c (Proc.devRef .tc main_arg1) := Wb_of_ne m c main_arg1 (by decide)
    _ = m ((c : Thread nD τ).loc main_arg1) := rfl

theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := Wc_of m c main_arg2 (by decide)
    _ = Wa m c (Proc.devRef .tc main_arg2) := Wb_of_ne m c main_arg2 (by decide)
    _ = m ((c : Thread nD τ).loc main_arg2) := rfl

/-- The result array ends at what the second call's write-backs leave. -/
theorem Wd_main_v6 (c : Dev nD) : Wd m c (Proc.devRef .tc main_v6) = (dat1 (Vc m) c).arrAt 4 cfg1.N := Wd_arr m c 4

/-- THE FRAME, at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

/-- The run with the result array named, beside the frame. -/
theorem run_value : θ_run defs (onTc (τ := τ) (main (F := F))) ⟨m, fun _ => 0, ρ⟩ (fun r => ∀ c : Dev nD,
      r.2.mem ((c.tc : Thread nD τ).loc main_v6) = (dat1 (Vc m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans (Wd_main_v6 m c),
     (h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

end Cert.Kernel.Hand

end
-- ==== Proof.KI.Amax.lean ====
/-
  The first call: the running maximum of |x| over sixteen row tiles of 2048 rows.
  At tile 0 the one-entry output block is set to the tile's maximum; at every later tile it is replaced by the
  larger of what it held and the tile's maximum; it is written back once, after the last tile.
-/
import proofs.«164014_j30777735643613_1_alg».proof.Proof.Gen.KernelIdeal.Launch
import proofs.«164014_j30777735643613_1_alg».proof.Proof.Gen.KernelIdeal.Skeleton
import proofs.«164014_j30777735643613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running maximum -/

/-- What the output block holds after tile `n`: the first tile's maximum, then the larger of the previous value and
    the tile's own. -/
def acc0 (c : Dev nD) : (n : ℕ) → n < cfg0.N → Vec F S1x1 .f32
  | 0, hn => k0_pay1 (iblk0 V c 0 ⟨0, hn⟩)
  | n + 1, hn => k0_pay2 (iblk0 V c 0 ⟨n + 1, hn⟩) (acc0 c n (Nat.lt_of_succ_lt hn))

/-! ## The proof data -/

/-- The input's buffer holds its tile; the output's holds the running maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-! ## The tiles' cases -/

/-- The input is idle at no tile. -/
theorem live0_0 : ∀ i : grid0.Coords, cfg0.idle 0 i = false := fun _ => rfl

/-- The output is idle at no tile: the first store runs at tile 0, the second at every other. -/
theorem live0_1 : ∀ i : grid0.Coords, cfg0.idle 1 i = false := by decide +kernel

/-- The first branch is taken at tile 0 only; -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second at every other tile. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- The running maximum at tile 0: the tile's own. -/
theorem acc0_first (c : Dev nD) (t : Fin cfg0.N) (h0 : t.val = 0) :
    acc0 V c t.val t.isLt = k0_pay1 (iblk0 V c 0 t) := by
  obtain ⟨n, hn⟩ := t
  cases n with
  | zero => rfl
  | succ n => exact absurd h0 (Nat.succ_ne_zero n)

/-- The running maximum at a later tile: the larger of the one before and the tile's own. -/
theorem acc0_later (c : Dev nD) (t : Fin cfg0.N) (h0 : t.val ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd rfl h0
  | succ n => rfl

/-! ## What the body finds -/

/-- The input's buffer holds its tile at every point. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)

/-- After tile 0 the output's buffer holds the running maximum of the tile before: it is written back after the last tile only. -/
theorem before0_1 (c : Dev nD) (t : Fin cfg0.N) (h0 : t.val ≠ 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live0_1 (fun _ _ => rfl)]
  dsimp only [dat0]

/-! ## The body on whole buffers -/

/-- The zero offsets of a two-axis access, spelt as a constant. -/
theorem zero2 : (![0, 0] : Fin 2 → Nat) = fun _ => 0 := funext fun a => by fin_cases a <;> rfl

set_option maxHeartbeats 1000000 in
/-- At tile 0 the body, on the input's buffer at `x0` and the output's at anything, leaves the output's buffer at the
    tile's maximum: the one store covers the one-entry block. -/
theorem run0_first (c : Dev nD) (E : Set ℕ) (i : grid0.Coords) (arg1 : Memref sig .tc .vmem S2048x1024 .f32) (harg1 : arg1.IsWhole)
    (arg2 : Memref sig .tc .vmem S1x1 .f32) (harg2 : arg2.IsWhole) (h1 : k0_cond1 i = 1#1) (h2 : ¬k0_cond2 i = 1#1)
    (x0 : Vec F S2048x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__amax_kernel i arg1 harg1 arg2 harg2) K := by
  simp only [cc0__amax_kernel_eq_skeleton]; unfold cc0__amax_kernel_skel
  unfold owns
  iintro ⟨⟨%f0, %hf0, H0⟩, ⟨%d1, %f1, -, H1⟩, Hk⟩
  obtain rfl := harg1.eq_unread hf0
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zero2 inb_S1x1_S1x1_0_0 y⟩)]
  rw [View.canon_unit_zero zero2]
  simp only [View.readAt_eq_ld, harg1.read_unread, View.ld_unit_zero (S := S2048x1024) zero2]

set_option maxHeartbeats 1000000 in
/-- At a later tile the body, on the input's buffer at `x0` and the output's at `xo`, leaves the output's buffer at the
    larger of `xo` and the tile's maximum. -/
theorem run0_later (c : Dev nD) (E : Set ℕ) (i : grid0.Coords) (arg1 : Memref sig .tc .vmem S2048x1024 .f32) (harg1 : arg1.IsWhole)
    (arg2 : Memref sig .tc .vmem S1x1 .f32) (harg2 : arg2.IsWhole) (h1 : ¬k0_cond1 i = 1#1) (h2 : k0_cond2 i = 1#1)
    (x0 : Vec F S2048x1024 .f32) (xo : Vec F S1x1 .f32) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay2 x0 xo)) -∗ K ⟨⟩))
      ⊢ wp frame (wpE (defs₀ (F := F)) Variants.none c none) E (cc0__amax_kernel i arg1 harg1 arg2 harg2) K := by
  simp only [cc0__amax_kernel_eq_skeleton]; unfold cc0__amax_kernel_skel
  unfold owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero zero2 inb_S1x1_S1x1_0_0 y⟩)]
  rw [View.canon_unit_zero zero2]
  simp only [View.readAt_eq_ld, harg1.read_unread, harg2.read_unread, View.ld_unit_zero (S := S2048x1024) zero2,
    View.ld_unit_zero (S := S1x1) zero2]

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any tile: the input's buffer holds its tile; at tile 0 the output's buffer holds anything and the
    first branch sets it; at a later tile it holds the running maximum of the tile before and the second branch
    updates it. The invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [acc0_first V c t h0]
    iintro ⟨HΦ, Ho, ⟨%d0, H0⟩, ⟨%d1, H1⟩⟩
    iapply (run0_first c Set.univ (grid0.coords t) _ _ _ _ ((hcond0_1 t).mpr h0) (fun h => (hcond0_2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_later V c t h0]
    simp only [before0_1 V c t h0]
    iintro ⟨HΦ, Ho, ⟨%d0, H0⟩, ⟨%d1, H1⟩⟩
    iapply (run0_later c Set.univ (grid0.coords t) _ _ _ _ (fun h => h0 ((hcond0_1 t).mp h)) ((hcond0_2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation of the first call, at every tile. -/
theorem body_obligation0 (c : Dev nD) : BodyObligation (dat0 (F := F) V c) (defs₀ (F := F)) Variants.none () Set.univ := by
  intro t
  rw [bigSep_W0, bigSep_W0]
  rw [live0_1 (cfg0.grid.coords t)]
  exact sound_body0 V c t

end Cert.KernelIdeal.Hand

end
-- ==== Proof.KI.Linear.lean ====
/-
  The second call: for each tile of 1024 rows of x, quantise the tile by the per-tensor scale, quantise the whole
  weight matrix row by row, multiply, rescale and add the bias.  Every tile writes its own output block.
-/
import proofs.«164014_j30777735643613_1_alg».proof.Proof.Gen.KernelIdeal.Launch
import proofs.«164014_j30777735643613_1_alg».proof.Proof.Gen.KernelIdeal.Skeleton
import proofs.«164014_j30777735643613_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The proof data -/

/-- Each input's buffer holds its block (the tile of x; the whole weights, bias row and scale); the output's holds
    the body's one stored value, a function of the four. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 3 t) (iblk1 V c 0 t) (iblk1 V c 1 t) (iblk1 V c 2 t) := by dsimp only [dat1]

/-! ## Each input's buffer holds its block

An input window's current buffer holds the window's block at every tile, whether the block was fetched at that tile
or at an earlier one: where nothing is fetched the block index has not moved, and the body leaves every input's buffer
as it found it.  The tile of x moves at every tile; the weights, the bias row and the scale are fetched once, at the
first tile, and their one block is the whole array. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- Every access of the body is to a whole buffer: the rectangle at offsets zero of the buffer's own sizes. -/
theorem offsets_zero : (![0, 0] : Fin 2 → Nat) = fun _ => 0 := funext fun a => by fin_cases a <;> rfl

set_option maxHeartbeats 1000000 in
/-- The body on whole buffers — the tile of x at `x0`, the weights at `x1`, the bias row at `x2`, the scale at `x3`,
    the output at anything — runs to the continuation holding the four inputs as they were and the output at the
    payload of the four: it reads each input whole, reads the output (a value it does not use), and stores the
    payload over the whole output, so that what the output buffer reads afterwards is that payload, whatever it
    held before. -/
theorem sound_kernel1 (c : Dev nD) (E : Set ℕ) (i : grid1.Coords)
    (arg1 : Memref sig .tc .vmem S1024x1024 .f32) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S1x1 .f32) (harg4 : arg4.IsWhole)
    (arg5 : Memref sig .tc .vmem S1024x1024 .f32) (harg5 : arg5.IsWhole)
    (x0 : Vec F S1024x1024 .f32) (x1 : Vec F S1024x1024 .f32) (x2 : Vec F S1x1024 .f32) (x3 : Vec F S1x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x3 x0 x1 x2)) -∗ K ⟨⟩))
      ⊢ wp frame (wpE (defs₀ (F := F)) Variants.none c none) E
          (cc1__fp8_linear_kernel i arg1 harg1 arg2 harg2 arg3 harg3 arg4 harg4 arg5 harg5) K := by
  simp only [cc1__fp8_linear_kernel_eq_skeleton]; unfold cc1__fp8_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the output buffer, so the buffer reads as the stored value; each whole-buffer load read the
  -- buffer's contents
  rw [View.read_writes_eq_canon _ _ _ (fun y => ⟨_, List.mem_singleton_self _, View.mem_set_unit_zero offsets_zero inb_S1024x1024_S1024x1024_0_0 y⟩),
    View.canon_unit_zero offsets_zero]
  simp only [View.readAt_eq_ld, View.ld_unit_zero (S := S1024x1024) offsets_zero,
    View.ld_unit_zero (S := S1x1024) offsets_zero, View.ld_unit_zero (S := S1x1) offsets_zero]

/-! ## The body obligation, at a generic tile -/

/-- What the body is called with at tile `t`: the invariant, the core's debts, and each window's current buffer, the
    inputs' at what they hold before the body and the output's at some contents; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the four inputs' buffers hold their blocks, so the body's triple applies at those blocks; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second call, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: the first call, seven host operations, the second call.
  Between two items every unscoped buffer is held whole at named contents: as launched (`Wa`); after the first call
  its result array at what its write-backs leave (`Wb`); after the host operations (`Wc`); after the second call
  its result array at what its write-backs leave (`Wd`).  Every weakly fair execution ends with every unscoped
  buffer at `Wd`; the three argument arrays are written by no item, so they end as launched.
-/
import proofs.«164014_j30777735643613_1_alg».proof.Proof.Gen.KernelIdeal.Launch
import proofs.«164014_j30777735643613_1_alg».proof.Proof.Gen.KernelIdeal.Skeleton
import proofs.«164014_j30777735643613_1_alg».proof.Proof.Gen.KernelIdeal.Points
import proofs.«164014_j30777735643613_1_alg».proof.Proof.Gen.KernelIdeal.Regions
import proofs.«164014_j30777735643613_1_alg».proof.Proof.KI.Amax
import proofs.«164014_j30777735643613_1_alg».proof.Proof.KI.Linear
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev Wa (c : Dev nD) : Valuation τ sig (Elt F) := fun b => m (c, b)
/-- The same read at the TensorCore's references: what the first call is entered with. -/
abbrev Va : (c : Dev nD) → (b : Ref sig .tc) → Buf (Elt F) ((c : Thread nD τ).loc b) := fun c b => Wa m c b
/-- After the first call: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- After the seven host operations: what the second call is entered with. -/
abbrev Wc : Dev nD → Valuation τ sig (Elt F) := fun c => StableHlo.after hostOps1 (Wb m c)
abbrev Vc : (c : Dev nD) → (b : Ref sig .tc) → Buf (Elt F) ((c : Thread nD τ).loc b) := fun c b => Wc m c b
/-- After the second call: its arrays at what the pipeline leaves, every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-- The host operations write none of the references outside their list of results. -/
theorem Wc_of (c : Dev nD) (r : Ref sig .tc) (h : r ∉ hostOps1_W) : Wc m c (Proc.devRef .tc r) = Wb m c (Proc.devRef .tc r) :=
  StableHlo.after_of_writes_sub hostOps1 _ hostOps1_writes h

/-! ## The proof data family and what rides beside the buffers -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wd m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (Wb m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final memory holds each unscoped buffer of each core at `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-! ## The argument arrays end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := (Wd_arr m c 0).trans (((dat1 (Vc m) c).arrAt_in 0 rfl _).trans (A_eq1 (Vc m) c 0))
    _ = Wb m c (Proc.devRef .tc main_arg0) := Wc_of m c main_arg0 (by decide)
    _ = Wa m c (Proc.devRef .tc main_arg0) := (Wb_arr m c 0).trans (((dat0 (Va m) c).arrAt_in 0 rfl _).trans (A_eq0 (Va m) c 0))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := (Wd_arr m c 1).trans (((dat1 (Vc m) c).arrAt_in 1 rfl _).trans (A_eq1 (Vc m) c 1))
    _ = Wb m c (Proc.devRef .tc main_arg1) := Wc_of m c main_arg1 (by decide)
    _ = Wa m c (Proc.devRef .tc main_arg1) := Wb_of_ne m c main_arg1 (by decide)
    _ = m ((c : Thread nD τ).loc main_arg1) := rfl

theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := Wc_of m c main_arg2 (by decide)
    _ = Wa m c (Proc.devRef .tc main_arg2) := Wb_of_ne m c main_arg2 (by decide)
    _ = m ((c : Thread nD τ).loc main_arg2) := rfl

/-- The result array ends at what the second call's write-backs leave. -/
theorem Wd_main_v6 (c : Dev nD) : Wd m c (Proc.devRef .tc main_v6) = (dat1 (Vc m) c).arrAt 4 cfg1.N := Wd_arr m c 4

/-- THE FRAME, at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

/-- The run with the result array named, beside the frame. -/
theorem run_value : θ_run defs (onTc (τ := τ) (main (F := F))) ⟨m, fun _ => 0, ρ⟩ (fun r => ∀ c : Dev nD,
      r.2.mem ((c.tc : Thread nD τ).loc main_v6) = (dat1 (Vc m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans (Wd_main_v6 m c),
     (h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

end Cert.KernelIdeal.Hand

end
-- ==== Proof.Spec.lean ====
/-
  What both programs compute, over the extended reals, as one function of the three argument arrays.

  A per-tensor scale `s = max (max |x| / 448) 1e-12` and a per-row scale `r o = max (max_k |w o k| / 448) 1e-12`
  quantise the two operands to integers in [-448, 448] (divide, clamp, round half to even); the output entry
  `(t, o)` is the dot product of row `t` of the quantised `x` with row `o` of the quantised `w`, rescaled by
  `s * r o`, plus `b o`.  The float literals stay as their words: the same word stands on both sides.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The activations, 32768 rows of 1024. -/
abbrev SX : Shape := ⟨2, ![32768, 1024]⟩
/-- The weights, 1024 output rows of 1024. -/
abbrev SW : Shape := ⟨2, ![1024, 1024]⟩
/-- The bias, one entry per output row of the weights. -/
abbrev SB : Shape := ⟨1, ![1024]⟩

/-- 448, the largest magnitude a quantised entry may take. -/
abbrev cap : Ideal .f32 := FloatOps.ofBits (F := Ideal) .f32 0x43E00000#32
/-- -448. -/
abbrev ncap : Ideal .f32 := FloatOps.ofBits (F := Ideal) .f32 0xC3E00000#32
/-- The least scale allowed (the f32 nearest 1e-12). -/
abbrev tiny : Ideal .f32 := FloatOps.ofBits (F := Ideal) .f32 0x2B8CBCCC#32
/-- -∞, the value a maximum starts from. -/
abbrev ninf : Ideal .f32 := FloatOps.ofBits (F := Ideal) .f32 0xFF800000#32

/-- The largest magnitude among all entries of `x`. -/
def amax (x : SX.Idx → Ideal .f32) : Ideal .f32 :=
  Finset.univ.fold (FloatOps.maximumf (F := Ideal) (φ := .f32)) ninf fun i : SX.Idx => FloatOps.absf (F := Ideal) (x i)

/-- The per-tensor scale of the activations. -/
def scale (x : SX.Idx → Ideal .f32) : Ideal .f32 :=
  FloatOps.maximumf (F := Ideal) (FloatOps.divf (F := Ideal) (amax x) cap) tiny

/-- The largest magnitude in row `o` of the weights. -/
def rowAmax (w : SW.Idx → Ideal .f32) (o : Fin 1024) : Ideal .f32 :=
  Finset.univ.fold (FloatOps.maximumf (F := Ideal) (φ := .f32)) ninf fun k : Fin 1024 => FloatOps.absf (F := Ideal) (w (ix2 o k))

/-- The scale of row `o` of the weights. -/
def wscale (w : SW.Idx → Ideal .f32) (o : Fin 1024) : Ideal .f32 :=
  FloatOps.maximumf (F := Ideal) (FloatOps.divf (F := Ideal) (rowAmax w o) cap) tiny

/-- An entry `v` quantised at scale `s`: divided, clamped to [-448, 448], rounded half to even. -/
def quant (v s : Ideal .f32) : Ideal .f32 :=
  FloatOps.roundeven (F := Ideal) (FloatOps.minimumf (F := Ideal) cap (FloatOps.maximumf (F := Ideal) ncap (FloatOps.divf (F := Ideal) v s)))

/-- The bias as one row of 1024. -/
abbrev SB2 : Shape := ⟨2, ![1, 1024]⟩
/-- The activations' scale as a one-entry array. -/
abbrev S11 : Shape := ⟨2, ![1, 1]⟩

/-- Output entry `(t, o)` of the quantised product, from the activations' scale `s` given as a one-entry array and
    the bias given as a row: the dot product of the quantised rows, rescaled by `s * r o`, plus the bias. -/
def lin (x : SX.Idx → Ideal .f32) (w : SW.Idx → Ideal .f32) (b2 : SB2.Idx → Ideal .f32) (s : S11.Idx → Ideal .f32)
    (t : Fin 32768) (o : Fin 1024) : Ideal .f32 :=
  (∑ k : Fin 1024, quant (x (ix2 t k)) (s (ix2 0 0)) * quant (w (ix2 o k)) (wscale w o)) * (s (ix2 0 0) * wscale w o) + b2 (ix2 0 o)

/-- The quantised product as a whole array. -/
def linArr (x : SX.Idx → Ideal .f32) (w : SW.Idx → Ideal .f32) (b2 : SB2.Idx → Ideal .f32) (s : S11.Idx → Ideal .f32) : SX.Idx → Ideal .f32 :=
  fun i => lin x w b2 s (i 0) (i 1)

/-- Output entry `(t, o)`. -/
def out (x : SX.Idx → Ideal .f32) (w : SW.Idx → Ideal .f32) (b : SB.Idx → Ideal .f32) (t : Fin 32768) (o : Fin 1024) : Ideal .f32 :=
  (∑ k : Fin 1024, quant (x (ix2 t k)) (scale x) * quant (w (ix2 o k)) (wscale w o)) * (scale x * wscale w o) + b (ix1 o)

/-- The whole output array. -/
def G (x : SX.Idx → Ideal .f32) (w : SW.Idx → Ideal .f32) (b : SB.Idx → Ideal .f32) : SX.Idx → Ideal .f32 :=
  fun i => out x w b (i 0) (i 1)

theorem G_ix2 (x : SX.Idx → Ideal .f32) (w : SW.Idx → Ideal .f32) (b : SB.Idx → Ideal .f32) (t : Fin 32768) (o : Fin 1024) :
    G x w b (ix2 t o) = out x w b t o := rfl

/-- The whole output is the quantised product at the activations' own scale and the bias laid out as a row. -/
theorem G_eq_linArr (x : SX.Idx → Ideal .f32) (w : SW.Idx → Ideal .f32) (b : SB.Idx → Ideal .f32) :
    G x w b = linArr x w (fun j => b (ix1 (j 1))) (fun _ => scale x) := rfl

end Cert.Spec

end
-- ==== Proof.KI.AmaxValue.lean ====
/-
  What the first call leaves in its one-entry result, over the extended reals: the largest |x| over the whole array.
  The running maximum after tile n is the maximum over the first n+1 tiles; the sixteen tiles cover the array.
-/
import proofs.«164014_j30777735643613_1_alg».proof.Proof.KI.Amax
import proofs.«164014_j30777735643613_1_alg».proof.Proof.Spec
import Idealize.ShloMosaic.Lib.Pipeline.Value
import Idealize.ShloMosaic.Lib.ValueIdx
import Idealize.ShloMosaic.PureOps.Ideal.Laws
import Mathlib.Data.Finset.Fold
import Mathlib.Logic.Equiv.Defs
import Mathlib.Order.Basic
import Mathlib.Order.BoundedOrder.Basic
import Mathlib.Order.MinMax

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The least value and the maximum's universal property -/

/-- The word a maximum starts from denotes the least extended real. -/
theorem ninf_eq_bot : (FloatOps.ofBits (F := Ideal) .f32 0xFF800000#32 : Ideal .f32) = ⊥ := by
  show Ideal.ofBits .f32 0xFF800000#32 = ⊥
  simp [Ideal.ofBits, Ideal.ieee]

/-- A maximum taken from the least value over a finite set lies below `b` exactly when every entry does. -/
theorem fold_maximumf_le_iff {ι : Type} (s : Finset ι) (f : ι → Ideal .f32) (b : Ideal .f32) :
    s.fold (FloatOps.maximumf (F := Ideal) (φ := .f32)) (FloatOps.ofBits (F := Ideal) .f32 0xFF800000#32) f ≤ b
      ↔ ∀ i ∈ s, f i ≤ b := by
  rw [ninf_eq_bot]
  show s.fold max (⊥ : EReal) f ≤ b ↔ _
  rw [Finset.fold_max_le]
  exact ⟨fun h => h.2, fun h => ⟨bot_le, h⟩⟩

/-! ## One tile -/

/-- The one-entry shape has one index. -/
theorem S1_idx_eq (a b : S1.Idx) : a = b :=
  funext fun d => Fin.ext (by
    have hs : S1.size d = 1 := by match d with | ⟨0, _⟩ => rfl
    have ha := (a d).isLt
    have hb := (b d).isLt
    omega)

/-- The tile's own maximum is the reduction's fold of the larger-of-two from the least value over the magnitudes of the
    tile's entries, re-laid under a leading unit axis (at whichever index of the one-entry result it is read). -/
theorem tileMax_eq_fold (x0 : Vec Ideal S2048x1024 .f32) (j : S1x1.Idx) : ∃ j' : S1.Idx,
    k0_pay1 (F := Ideal) x0 j
      = (Finset.univ.filter fun i => reduces_S1x2048x1024_S1.drop i = j').fold
          (FloatOps.maximumf (F := Ideal) (φ := .f32)) (FloatOps.ofBits (F := Ideal) .f32 0xFF800000#32)
          (shapeCast S1x2048x1024 (absf (F := Ideal) (φ := .f32) x0) shapeCasts_S2048x1024_S1x2048x1024) := by
  unfold k0_pay1
  dsimp only
  rw [broadcast_apply]
  unfold extractAt
  exact ⟨_, multiReduction_maximumf_eq_fold (F := Ideal) (φ := .f32) (s := S1x2048x1024) (t := S1) (axes := [1, 2])
    (shapeCast S1x2048x1024 (absf (F := Ideal) (φ := .f32) x0) shapeCasts_S2048x1024_S1x2048x1024) 0xFF800000#32
    reduces_S1x2048x1024_S1 (.inl rfl) rfl _⟩

/-- So it lies below `b` exactly when the magnitude of every entry of the tile does. -/
theorem tileMax_le_iff (x0 : Vec Ideal S2048x1024 .f32) (j : S1x1.Idx) (b : Ideal .f32) :
    k0_pay1 (F := Ideal) x0 j ≤ b ↔ ∀ y : S2048x1024.Idx, FloatOps.absf (F := Ideal) (φ := .f32) (x0 y) ≤ b := by
  obtain ⟨j', e⟩ := tileMax_eq_fold x0 j
  rw [e, fold_maximumf_le_iff]
  constructor
  · intro h y
    have hy := h ((Shape.reshapeEquiv shapeCasts_S2048x1024_S1x2048x1024).symm y)
      (Finset.mem_filter.mpr ⟨Finset.mem_univ _, S1_idx_eq _ _⟩)
    have e' : shapeCast S1x2048x1024 (absf (F := Ideal) (φ := .f32) x0) shapeCasts_S2048x1024_S1x2048x1024
        ((Shape.reshapeEquiv shapeCasts_S2048x1024_S1x2048x1024).symm y)
          = FloatOps.absf (F := Ideal) (φ := .f32) (x0 y) :=
      congrArg (fun k => FloatOps.absf (F := Ideal) (φ := .f32) (x0 k)) (Equiv.apply_symm_apply _ y)
    exact e' ▸ hy
  · intro h i _
    exact h _

/-- A later tile replaces the one entry by the larger of what it held and the tile's own maximum (the re-laying of a
    one-by-one block as itself changes nothing): so the new entry lies below `b` exactly when the old one and the
    magnitude of every entry of the tile do. -/
theorem step_le_iff (x0 : Vec Ideal S2048x1024 .f32) (prev : Vec Ideal S1x1 .f32) (j : S1x1.Idx) (b : Ideal .f32) :
    k0_pay2 (F := Ideal) x0 prev j ≤ b
      ↔ (prev j : Ideal .f32) ≤ b ∧ ∀ y : S2048x1024.Idx, FloatOps.absf (F := Ideal) (φ := .f32) (x0 y) ≤ b := by
  have e : k0_pay2 (F := Ideal) x0 prev j = max (prev j : Ideal .f32) (k0_pay1 (F := Ideal) x0 j) :=
    congrArg (fun v : Vec Ideal S1x1 .f32 => max (v j : Ideal .f32) (k0_pay1 (F := Ideal) x0 j))
      (shapeCast_self prev shapeCasts_S1x1_S1x1)
  rw [e, max_le_iff, tileMax_le_iff]

/-! ## The tiles in the array -/

/-- Entry `y` of tile `t` sits in the array at row `2048 t + y₀`, column `y₁`. -/
def tileRow (t : ℕ) (ht : t < 16) (y : S2048x1024.Idx) : Cert.Spec.SX.Idx :=
  ix2 (⟨2048 * t + (y 0).val, by have := idx2_lt0 y; omega⟩ : Fin 32768) (y 1 : Fin 1024)

/-- The first window's block index at tile `t` is `(t, 0)`. -/
theorem tile_index : ∀ t : Fin cfg0.N, win0_0.index t 0 = t.val ∧ win0_0.index t 1 = 0 :=
  (by decide +kernel : ∀ t : Fin grid0.N, win0_0.index t 0 = t.val ∧ win0_0.index t 1 = 0)

/-- The block the first window shows at tile `t` holds the array's rows `2048 t … 2048 t + 2047`. -/
theorem iblk0_apply (c : Dev nD) (t : Fin cfg0.N) (y : S2048x1024.Idx) :
    (iblk0 (F := Ideal) V c 0 t : Vec Ideal S2048x1024 .f32) y
      = V c main_arg0 (tileRow t.val (lt_of_lt_of_eq t.isLt N_0) y) := by
  have hi := tile_index t
  unfold iblk0
  rw [View.read_apply]
  show V c main_arg0 _ = V c main_arg0 _
  congr 1
  funext a
  apply Fin.ext
  match a with
  | ⟨0, _⟩ => show win0_0.index t 0 * 2048 + 1 * (y 0).val = 2048 * t.val + (y 0).val; rw [hi.1]; omega
  | ⟨1, _⟩ => show win0_0.index t 1 * 1024 + 1 * (y 1).val = (y 1).val; rw [hi.2]; omega

/-- A property holds at every entry of tile `t` exactly when it holds at every index of the array whose row lies in
    `2048 t … 2048 t + 2047`. -/
theorem forall_tile_iff (P : Cert.Spec.SX.Idx → Prop) (t : ℕ) (ht : t < 16) :
    (∀ y : S2048x1024.Idx, P (tileRow t ht y))
      ↔ ∀ i : Cert.Spec.SX.Idx, 2048 * t ≤ (i 0).val → (i 0).val < 2048 * (t + 1) → P i := by
  constructor
  · intro h i h0 h1
    have e : tileRow t ht (ix2 (⟨(i 0).val - 2048 * t, by omega⟩ : Fin 2048) (i 1 : Fin 1024)) = i := by
      funext a
      match a with
      | ⟨0, _⟩ => exact Fin.ext (show 2048 * t + ((i 0).val - 2048 * t) = (i 0).val by omega)
      | ⟨1, _⟩ => rfl
    exact e ▸ h _
  · intro h y
    have hy := idx2_lt0 y
    exact h _ (show 2048 * t ≤ 2048 * t + (y 0).val by omega) (show 2048 * t + (y 0).val < 2048 * (t + 1) by omega)

/-! ## The running maximum -/

/-- After tile `n` the one entry lies below `b` exactly when the magnitude of every entry in the array's first
    `2048 (n + 1)` rows does: it is their maximum. By induction on the tile. -/
theorem acc0_le_iff (c : Dev nD) : ∀ (n : ℕ) (hn : n < cfg0.N) (j : S1x1.Idx) (b : Ideal .f32),
    (acc0 (F := Ideal) V c n hn j : Ideal .f32) ≤ b
      ↔ ∀ i : Cert.Spec.SX.Idx, (i 0).val < 2048 * (n + 1) →
          FloatOps.absf (F := Ideal) (φ := .f32) (V c main_arg0 i) ≤ b
  | 0, hn, j, b => by
    have h16 : (0 : ℕ) < 16 := lt_of_lt_of_eq hn N_0
    show k0_pay1 (F := Ideal) (iblk0 (F := Ideal) V c 0 ⟨0, hn⟩) j ≤ b ↔ _
    refine (tileMax_le_iff (iblk0 (F := Ideal) V c 0 ⟨0, hn⟩) j b).trans ?_
    have e : ∀ y : S2048x1024.Idx, (iblk0 (F := Ideal) V c 0 ⟨0, hn⟩ : Vec Ideal S2048x1024 .f32) y
        = V c main_arg0 (tileRow 0 h16 y) := fun y => iblk0_apply V c ⟨0, hn⟩ y
    simp only [e]
    refine (forall_tile_iff (fun i => FloatOps.absf (F := Ideal) (φ := .f32) (V c main_arg0 i) ≤ b) 0 h16).trans ?_
    exact ⟨fun h i hi => h i (by omega) (by omega), fun h i _ hi => h i (by omega)⟩
  | n + 1, hn, j, b => by
    have h16 : n + 1 < 16 := lt_of_lt_of_eq hn N_0
    show k0_pay2 (F := Ideal) (iblk0 (F := Ideal) V c 0 ⟨n + 1, hn⟩) (acc0 (F := Ideal) V c n (Nat.lt_of_succ_lt hn)) j ≤ b ↔ _
    refine (step_le_iff (iblk0 (F := Ideal) V c 0 ⟨n + 1, hn⟩) (acc0 (F := Ideal) V c n (Nat.lt_of_succ_lt hn)) j b).trans ?_
    rw [acc0_le_iff c n (Nat.lt_of_succ_lt hn) j b]
    have e : ∀ y : S2048x1024.Idx, (iblk0 (F := Ideal) V c 0 ⟨n + 1, hn⟩ : Vec Ideal S2048x1024 .f32) y
        = V c main_arg0 (tileRow (n + 1) h16 y) := fun y => iblk0_apply V c ⟨n + 1, hn⟩ y
    simp only [e]
    rw [forall_tile_iff (fun i => FloatOps.absf (F := Ideal) (φ := .f32) (V c main_arg0 i) ≤ b) (n + 1) h16]
    constructor
    · rintro ⟨h1, h2⟩ i hi
      by_cases hlt : (i 0).val < 2048 * (n + 1)
      · exact h1 i hlt
      · exact h2 i (by omega) (by omega)
    · intro h
      exact ⟨fun i hi => h i (by omega), fun i _ hi => h i (by omega)⟩

/-- After the last tile the one entry is the largest magnitude of the whole array. -/
theorem acc0_last (c : Dev nD) (t : Fin cfg0.N) (ht : t.val = 15) :
    acc0 (F := Ideal) V c t.val t.isLt = fun _ => Cert.Spec.amax (V c main_arg0) := by
  funext j
  refine eq_of_forall_ge_iff fun b => ?_
  rw [acc0_le_iff V c t.val t.isLt j b]
  unfold Cert.Spec.amax
  rw [fold_maximumf_le_iff]
  constructor
  · intro h i _
    exact h i (by have := idx2_lt0 i; omega)
  · intro h i _
    exact h i (Finset.mem_univ i)

/-! ## From the one write-back to the array -/

/-- The result is written back after the last tile only, and what is written there is the block of the array that
    holds the largest magnitude at its one index. -/
theorem flushed_eq_block (c : Dev nD) (t : Fin cfg0.N) (hf : (cfg0.win 1).flush t = true) :
    (dat0 (F := Ideal) V c).flushed 1 t
      = ((cfg0.win 1).blk t).view.read (Elt Ideal) (fun _ => Cert.Spec.amax (V c main_arg0)) := by
  have hN : cfg0.N = 16 := N_0
  have h15 : t.val = 15 := by have := (flush0_1 t).mp hf; have := t.isLt; omega
  show (cfg0.win 1).cut (grid0.coords t) ((dat0 (F := Ideal) V c).after 1 t) = _
  rw [after0_1, acc0_last V c t h15]
  funext y
  rw [View.read_apply]
  exact (cast_eq _ _).symm

/-- At every tile the second window's block starts at the array's origin and is the whole one-by-one array. -/
theorem out_block : ∀ (t : Fin cfg0.N) (a : Fin 2),
    win0_1.index t a * win0_1.size a = 0 ∧ win0_1.xsize (grid0.coords t) a = 1 :=
  (by decide +kernel : ∀ (t : Fin grid0.N) (a : Fin 2),
    win0_1.index t a * win0_1.size a = 0 ∧ win0_1.xsize (grid0.coords t) a = 1)

/-- After the first call its result array holds, at its one index, the largest magnitude of the array `main_arg0`
    as the call found it. -/
theorem amax_arr (c : Dev nD) :
    (dat0 (F := Ideal) V c).arrAt 1 cfg0.N = fun _ => Cert.Spec.amax (V c main_arg0) := by
  refine (dat0 (F := Ideal) V c).arrAt_eq_of_cover 1 (fun _ => Cert.Spec.amax (V c main_arg0))
    (flushed_eq_block V c) fun i => ?_
  -- the last tile writes back, and its block holds the array's one index
  refine ⟨t0_15, (flush0_1 t0_15).mpr rfl, ?_⟩
  show i ∈ ((View.whole main_v0).slice (win0_1.rect t0_15)).set
  rw [View.set_slice_whole, Rect.mem_set_unit]
  intro a
  obtain ⟨h0, h1⟩ := out_block t0_15 a
  have hs : ∀ a : Fin 2, S1x1.size a = 1 := by decide
  have hi : (i a).val < S1x1.size a := (i a).isLt
  rw [hs a] at hi
  rw [h0, h1]
  omega

end Cert.KernelIdeal.Hand

end
-- ==== Proof.KI.LinearValue.lean ====
/-
  What the second call leaves in its result array, over the extended reals: entry (t, o) is the dot product of the
  quantised row t of x with the quantised row o of w, rescaled and shifted by the bias.  Tile t of the grid writes
  rows 1024·t … 1024·t+1023; the 32 tiles cover the array.
-/
import proofs.«164014_j30777735643613_1_alg».proof.Proof.KI.Linear
import proofs.«164014_j30777735643613_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Lin

open Cert.Spec (quant wscale rowAmax cap ncap tiny ninf)

/-! ## Layout operations of the body, read at an index -/

/-- The one-entry scale, laid out over a whole block, reads its one entry everywhere. -/
theorem scale_bcast_apply (s0 : FVec Ideal S1x1 .f32) (p q : Fin 1024) :
    broadcastTo S1024x1024 (shapeCast S1x1 s0 shapeCasts_S1x1_S1x1) broadcasts_S1x1_S1024x1024 (ix2 p q) = s0 (ix2 0 0) := by
  rw [shapeCast_self]
  refine broadcastTo_apply s0 _ (ix2 p q) (ix2 (0 : Fin 1) (0 : Fin 1)) fun ax => ?_
  match ax with
  | ⟨0, _⟩ => rfl
  | ⟨1, _⟩ => rfl

/-- The one-entry scale, laid out over a row, reads its one entry everywhere. -/
theorem scale_row_apply (s0 : FVec Ideal S1x1 .f32) (u : Fin 1) (q : Fin 1024) :
    broadcastTo S1x1024 (shapeCast S1x1 s0 shapeCasts_S1x1_S1x1) broadcasts_S1x1_S1x1024 (ix2 u q) = s0 (ix2 0 0) := by
  rw [shapeCast_self]
  refine broadcastTo_apply s0 _ (ix2 u q) (ix2 (0 : Fin 1) (0 : Fin 1)) fun ax => ?_
  match ax with
  | ⟨0, _⟩ => rfl
  | ⟨1, _⟩ => rfl

/-- A vector laid out as a column reads its entry at the row. -/
theorem col_cast_apply {α : Type} (v : S1024.Idx → α) (q : Fin 1024) (z : Fin 1) :
    shapeCast S1024x1 v shapeCasts_S1024_S1024x1 (ix2 q z) = v (ix1 q) :=
  shapeCast_apply v _ (ix2 q z) (ix1 q) (by
    have hz : z.val = 0 := by omega
    rw [Shape.rowMajor_val_two, Shape.rowMajor_val_one]
    show q.val = q.val * 1 + z.val
    rw [hz, Nat.mul_one, Nat.add_zero])

/-- A column broadcast over the columns reads the column's entry at the row. -/
theorem col_bcast_apply {α : Type} (v : S1024x1.Idx → α) (q k : Fin 1024) :
    broadcastTo S1024x1024 v broadcasts_S1024x1_S1024x1024 (ix2 q k) = v (ix2 q (0 : Fin 1)) := by
  refine broadcastTo_apply v _ (ix2 q k) (ix2 q (0 : Fin 1)) fun ax => ?_
  match ax with
  | ⟨0, _⟩ => rfl
  | ⟨1, _⟩ => rfl

/-- A vector laid out as a row reads its entry at the column. -/
theorem row_cast_apply {α : Type} (v : S1024.Idx → α) (u : Fin 1) (q : Fin 1024) :
    shapeCast S1x1024 v shapeCasts_S1024_S1x1024 (ix2 u q) = v (ix1 q) :=
  shapeCast_a_1a_apply v _ u q

/-- The index a row reduction reads: the row with the column put back. -/
theorem lift_row (h : S1024x1024.Reduces [1] S1024) (q k : Fin 1024) : h.lift (ix1 q) k = ix2 q k :=
  funext fun c => Fin.ext (by match c with | ⟨0, _⟩ => rfl | ⟨1, _⟩ => rfl)

/-- The maximum of each row's magnitudes, as the body takes it, is the fold of `max` over the row. -/
theorem row_max_apply (w0 : FVec Ideal S1024x1024 .f32) (h : S1024x1024.Reduces [1] S1024) (hφ : FKind.Formats .f32)
    (hacc : (0xFF800000#32 : BitVec 32) = FKind.maximumf.neutral .f32 hφ) (q : Fin 1024) :
    multiReduction (F := Ideal) .maximumf [1] S1024 (absf w0) 0xFF800000#32 h hφ hacc (ix1 q) = rowAmax w0 q := by
  have X := Ideal.multiReduction_maximumf_single (absf w0) 0xFF800000#32 h hφ hacc (ix1 q)
  refine X.trans ?_
  unfold rowAmax
  have e : (absf w0 ∘ h.lift (ix1 q)) = fun k : Fin 1024 => FloatOps.absf (F := Ideal) (w0 (ix2 q k)) :=
    funext fun k => congrArg (absf w0) (lift_row h q k)
  exact congrArg (fun f => Finset.fold max (FloatOps.ofBits (F := Ideal) .f32 0xFF800000#32) f Finset.univ) e

/-! ## The product: each entry is the dot product of two rows -/

theorem lhs_lin_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_lin_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_lin_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_lin_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The body's product into a zero accumulator, at entry `(p, q)`: the dot product of row `p` of the left operand with row
    `q` of the right one (both contract their second axis). -/
theorem prod_apply (A B : FVec Ideal S1024x1024 .bf16) (p q : Fin 1024) :
    matmul dot_S1024x1024_S1024x1024_S1024x1024_1_1_0_0_n_n none A B (constant S1024x1024 .f32 0x00000000#32) (ix2 p q)
      = ∑ k : Fin 1024, A (ix2 p k) * B (ix2 q k) := by
  have X := Ideal.matmul_constant_zero_apply dot_S1024x1024_S1024x1024_S1024x1024_1_1_0_0_n_n none A B (ix2 p q)
  refine X.trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_lin_0 _ _
    | ⟨1, _⟩ => exact (lhs_lin_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_lin_0 _ _
    | ⟨1, _⟩ => exact (rhs_lin_1 _ _).trans hk)
  rw [el, er]

/-! ## The body's intermediate vectors -/

/-- The per-row scales of a block of weights, as the body computes them: the row's largest magnitude over 448, at least the
    least scale. -/
def rowScales (w0 : FVec Ideal S1024x1024 .f32) : FVec Ideal S1024 .f32 :=
  maximumf
    (divf (multiReduction .maximumf [1] S1024 (absf w0) 0xFF800000#32 reduces_S1024x1024_S1024 (.inl rfl) rfl)
      (broadcast S1024 (Scalar.ofBits .f32 0x43E00000#32)))
    (broadcast S1024 (Scalar.ofBits .f32 0x2B8CBCCC#32))

theorem rowScales_apply (w0 : FVec Ideal S1024x1024 .f32) (q : Fin 1024) : rowScales w0 (ix1 q) = wscale w0 q := by
  unfold rowScales wscale
  exact congrArg (fun m : Ideal .f32 => FloatOps.maximumf (F := Ideal) (FloatOps.divf (F := Ideal) m cap) tiny)
    (row_max_apply w0 reduces_S1024x1024_S1024 (.inl rfl) rfl q)

/-- A block divided entry by entry by `d`, clamped to [-448, 448] and rounded half to even, as the body does it. -/
def clampRound (v d : FVec Ideal S1024x1024 .f32) : FVec Ideal S1024x1024 .f32 :=
  roundeven (minimumf (broadcast S1024x1024 (Scalar.ofBits .f32 0x43E00000#32))
    (maximumf (broadcast S1024x1024 (Scalar.ofBits .f32 0xC3E00000#32)) (divf v d)))

theorem clampRound_apply (v d : FVec Ideal S1024x1024 .f32) (i : S1024x1024.Idx) :
    clampRound v d i = quant (v i) (d i) := rfl

/-- The block of activations quantised at the one scale. -/
theorem qact_apply (s0 : FVec Ideal S1x1 .f32) (x0 : FVec Ideal S1024x1024 .f32) (p k : Fin 1024) :
    clampRound x0 (broadcastTo S1024x1024 (shapeCast S1x1 s0 shapeCasts_S1x1_S1x1) broadcasts_S1x1_S1024x1024) (ix2 p k)
      = quant (x0 (ix2 p k)) (s0 (ix2 0 0)) := by
  rw [clampRound_apply, scale_bcast_apply]

/-- The block of weights quantised row by row at the rows' scales. -/
theorem qwt_apply (w0 : FVec Ideal S1024x1024 .f32) (q k : Fin 1024) :
    clampRound w0 (broadcastTo S1024x1024 (shapeCast S1024x1 (rowScales w0) shapeCasts_S1024_S1024x1) broadcasts_S1024x1_S1024x1024) (ix2 q k)
      = quant (w0 (ix2 q k)) (wscale w0 q) := by
  rw [clampRound_apply, col_bcast_apply, col_cast_apply, rowScales_apply]

/-- The body's stored value as one expression of the intermediate vectors. -/
theorem pay_eq (s0 : FVec Ideal S1x1 .f32) (x0 w0 : FVec Ideal S1024x1024 .f32) (b0 : FVec Ideal S1x1024 .f32) :
    k1_pay1 (F := Ideal) s0 x0 w0 b0
      = addf
          (mulf
            (matmul dot_S1024x1024_S1024x1024_S1024x1024_1_1_0_0_n_n none
              (truncf .bf16 (clampRound x0 (broadcastTo S1024x1024 (shapeCast S1x1 s0 shapeCasts_S1x1_S1x1) broadcasts_S1x1_S1024x1024)) bitsLt_bf16_f32)
              (truncf .bf16 (clampRound w0 (broadcastTo S1024x1024 (shapeCast S1024x1 (rowScales w0) shapeCasts_S1024_S1024x1) broadcasts_S1024x1_S1024x1024)) bitsLt_bf16_f32)
              (constant S1024x1024 .f32 0x00000000#32))
            (broadcastTo S1024x1024
              (mulf (broadcastTo S1x1024 (shapeCast S1x1 s0 shapeCasts_S1x1_S1x1) broadcasts_S1x1_S1x1024)
                (shapeCast S1x1024 (rowScales w0) shapeCasts_S1024_S1x1024))
              broadcasts_S1x1024_S1024x1024))
          (broadcastTo S1024x1024 (shapeCast S1x1024 b0 shapeCasts_S1x1024_S1x1024) broadcasts_S1x1024_S1024x1024) := rfl

/-- THE BODY'S STORED VALUE AT AN ENTRY: the dot product of the quantised rows, rescaled, plus the bias. -/
theorem pay_apply (s0 : FVec Ideal S1x1 .f32) (x0 w0 : FVec Ideal S1024x1024 .f32) (b0 : FVec Ideal S1x1024 .f32) (p q : Fin 1024) :
    k1_pay1 (F := Ideal) s0 x0 w0 b0 (ix2 p q)
      = (∑ k : Fin 1024, quant (x0 (ix2 p k)) (s0 (ix2 0 0)) * quant (w0 (ix2 q k)) (wscale w0 q)) * (s0 (ix2 0 0) * wscale w0 q)
        + b0 (ix2 0 q) := by
  rw [pay_eq, addf_apply, mulf_apply, prod_apply, broadcastTo_1b_ab_apply, broadcastTo_1b_ab_apply, mulf_apply,
    scale_row_apply, row_cast_apply, rowScales_apply, shapeCast_self b0]
  refine congrArg (fun z : Ideal .f32 => z * (s0 (ix2 0 0) * wscale w0 q) + b0 (ix2 0 q)) ?_
  refine Finset.sum_congr rfl fun k _ => ?_
  rw [truncf_apply, truncf_apply, qact_apply, qwt_apply]

/-! ## From the tiles to the array -/

/-- The block index of every window at tile `t`: the activations' and the result's blocks move down the rows with the
    tile, the weights, the bias row and the scale are whole. Decided over the 32 tiles. -/
theorem idx_lin : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Tile `t`'s block of the activations is rows `1024·t … 1024·t + 1023` of the array. -/
theorem iblk_act (c : Dev nD) (t : Fin cfg1.N) (y : S1024x1024.Idx) (i : S32768x1024.Idx)
    (h0 : (i 0).val = t.val * 1024 + (y 0).val) (h1 : (i 1).val = (y 1).val) :
    (iblk1 V c 0 t : FVec Ideal S1024x1024 .f32) y = (V c main_arg0 : FVec Ideal S32768x1024 .f32) i := by
  obtain ⟨e0, e1, -⟩ := idx_lin t
  unfold iblk1
  rw [View.read_apply]
  show V c main_arg0 _ = V c main_arg0 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The weights' block is the whole array at every tile. -/
theorem iblk_wt (c : Dev nD) (t : Fin cfg1.N) :
    (iblk1 V c 1 t : FVec Ideal S1024x1024 .f32) = (V c main_arg1 : FVec Ideal S1024x1024 .f32) := by
  obtain ⟨-, -, e0, e1, -⟩ := idx_lin t
  funext y
  unfold iblk1
  rw [View.read_apply]
  show V c main_arg1 _ = V c main_arg1 y
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-- The bias row's block is the whole row at every tile. -/
theorem iblk_bias (c : Dev nD) (t : Fin cfg1.N) :
    (iblk1 V c 2 t : FVec Ideal S1x1024 .f32) = (V c main_v5 : FVec Ideal S1x1024 .f32) := by
  obtain ⟨-, -, -, -, e0, e1, -⟩ := idx_lin t
  funext y
  unfold iblk1
  rw [View.read_apply]
  show V c main_v5 _ = V c main_v5 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- The scale's block is its one entry at every tile. -/
theorem iblk_scale (c : Dev nD) (t : Fin cfg1.N) :
    (iblk1 V c 3 t : FVec Ideal S1x1 .f32) = (V c main_v4 : FVec Ideal S1x1 .f32) := by
  obtain ⟨-, -, -, -, -, -, e0, e1, -⟩ := idx_lin t
  funext y
  unfold iblk1
  rw [View.read_apply]
  show V c main_v4 _ = V c main_v4 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 1 + 1 * (y 1).val = (y 1).val; rw [e1]; omega

/-- ONE TILE: with a block `x0` that is rows `1024·n …` of the activations `x`, the body's stored value at an entry of the
    block is the quantised product at the array entry that lies under it. -/
theorem lin_block (x : FVec Ideal S32768x1024 .f32) (w : FVec Ideal S1024x1024 .f32) (b2 : FVec Ideal S1x1024 .f32)
    (s : FVec Ideal S1x1 .f32) (x0 : FVec Ideal S1024x1024 .f32) (n : Nat)
    (hx : ∀ (y : S1024x1024.Idx) (i : S32768x1024.Idx), (i 0).val = n * 1024 + (y 0).val → (i 1).val = (y 1).val → x0 y = x i)
    (j : S1024x1024.Idx) (i : S32768x1024.Idx) (h0 : (i 0).val = n * 1024 + (j 0).val) (h1 : (i 1).val = (j 1).val) :
    k1_pay1 (F := Ideal) s x0 w b2 j = Cert.Spec.linArr x w b2 s i := by
  obtain ⟨p, q, rfl⟩ : ∃ (p q : Fin 1024), j = ix2 p q := ⟨j 0, j 1, eq_ix2 j⟩
  obtain ⟨r, o, rfl⟩ : ∃ (r : Fin 32768) (o : Fin 1024), i = ix2 r o := ⟨i 0, i 1, eq_ix2 i⟩
  obtain rfl : o = q := Fin.ext h1
  rw [pay_apply]
  show _ = Cert.Spec.lin x w b2 s r o
  unfold Cert.Spec.lin
  refine congrArg (fun z : Ideal .f32 => z * (s (ix2 0 0) * wscale w o) + b2 (ix2 0 o)) ?_
  refine Finset.sum_congr rfl fun k _ => ?_
  rw [hx (ix2 p k) (ix2 r k) h0 rfl]

/-- WHAT TILE `t` WRITES BACK is its block of the quantised product of the arrays the call was entered with. -/
theorem flushed_lin (c : Dev nD) (t : Fin cfg1.N) :
    (dat1 (F := Ideal) V c).flushed 4 t
      = ((cfg1.win 4).blk t).view.read (Elt Ideal)
          (Cert.Spec.linArr (V c main_arg0) (V c main_arg1) (V c main_v5) (V c main_v4)) := by
  show (cfg1.win 4).cut (grid1.coords t) ((dat1 (F := Ideal) V c).after 4 t) = _
  rw [after1_4, iblk_wt, iblk_bias, iblk_scale]
  obtain ⟨-, -, -, -, -, -, -, -, e0, e1⟩ := idx_lin t
  funext j
  rw [View.read_apply]
  refine lin_block (V c main_arg0) (V c main_arg1) (V c main_v5) (V c main_v4) (iblk1 V c 0 t) t.val
    (fun y i h0 h1 => iblk_act V c t y i h0 h1) j _ ?_ ?_
  · show win1_4.index t (0 : Fin 2) * 1024 + 1 * (j 0).val = t.val * 1024 + (j 0).val
    rw [e0]; omega
  · show win1_4.index t (1 : Fin 2) * 1024 + 1 * (j 1).val = (j 1).val
    rw [e1]; omega

/-- An index of the result array is in tile `t`'s block iff each coordinate is in the block's range on its axis. -/
theorem mem_blk_lin (t : Fin cfg1.N) (i : S32768x1024.Idx) :
    i ∈ ((cfg1.win 4).blk t).view.set
      ↔ ∀ a : Fin 2, win1_4.index t a * S1024x1024.size a ≤ (i a).val
          ∧ (i a).val < win1_4.index t a * S1024x1024.size a + S1024x1024.size a := by
  show i ∈ ((View.whole main_v6).slice (win1_4.rect t)).set ↔ _
  rw [View.set_slice_whole, Rect.mem_set_unit]
  exact Iff.rfl

/-- The 32 tiles cover the result array: row `r` lies in the block of tile `r / 1024`. -/
theorem cover_lin (i : S32768x1024.Idx) :
    ∃ t : Fin cfg1.N, (cfg1.win 4).flush t = true ∧ i ∈ ((cfg1.win 4).blk t).view.set := by
  have hN : cfg1.N = 32 := N_1
  have hi0 : (i 0).val < 32768 := (i 0).isLt
  have hi1 : (i 1).val < 1024 := (i 1).isLt
  refine ⟨⟨(i 0).val / 1024, by rw [hN]; omega⟩, flush1_4 _, ?_⟩
  obtain ⟨-, -, -, -, -, -, -, -, e0, e1⟩ := idx_lin ⟨(i 0).val / 1024, by rw [hN]; omega⟩
  rw [mem_blk_lin]
  intro a
  match a with
  | ⟨0, _⟩ =>
    show win1_4.index _ (0 : Fin 2) * 1024 ≤ (i 0).val ∧ (i 0).val < win1_4.index _ (0 : Fin 2) * 1024 + 1024
    rw [e0]
    show (i 0).val / 1024 * 1024 ≤ (i 0).val ∧ (i 0).val < (i 0).val / 1024 * 1024 + 1024
    omega
  | ⟨1, _⟩ =>
    show win1_4.index _ (1 : Fin 2) * 1024 ≤ (i 1).val ∧ (i 1).val < win1_4.index _ (1 : Fin 2) * 1024 + 1024
    rw [e1]
    omega

end Lin

/-- After the second call its result array is the quantised product of the arrays it was entered with: the
    activations `main_arg0`, the weights `main_arg1`, the bias row `main_v5` and the one-entry scale `main_v4`. -/
theorem lin_arr (c : Dev nD) :
    (dat1 (F := Ideal) V c).arrAt 4 cfg1.N
      = Cert.Spec.linArr (V c main_arg0) (V c main_arg1) (V c main_v5) (V c main_v4) := by
  exact (dat1 (F := Ideal) V c).arrAt_eq_of_cover 4
    (Cert.Spec.linArr (V c main_arg0) (V c main_arg1) (V c main_v5) (V c main_v4))
    (fun t _ => Lin.flushed_lin V c t) Lin.cover_lin

end Cert.KernelIdeal.Hand

end
-- ==== Proof.KI.Value.lean ====
/-
  What the idealized kernel program leaves in its result array, over the extended reals, as the specification's
  function of the three argument arrays as launched.  The second call is entered with the activations and the weights as
  launched, the bias laid out as a row, and the one-entry scale the host operations compute from the first call's
  maximum: `max (amax / 448) 1e-12`; its result is the quantised product at exactly these.
-/
import proofs.«164014_j30777735643613_1_alg».proof.Proof.KI.Run
import proofs.«164014_j30777735643613_1_alg».proof.Proof.KI.AmaxValue
import proofs.«164014_j30777735643613_1_alg».proof.Proof.KI.LinearValue
import proofs.«164014_j30777735643613_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-- The second call finds the activations as launched: the first call only reads them and no host operation writes them. -/
theorem Vc_main_arg0 (c : Dev nD) : Vc m c main_arg0 = m ((c : Thread nD τ).loc main_arg0) :=
  (Wc_of m c main_arg0 (by decide)).trans ((Wb_arr m c 0).trans (((dat0 (Va m) c).arrAt_in 0 rfl _).trans (A_eq0 (Va m) c 0)))

/-- It finds the weights as launched. -/
theorem Vc_main_arg1 (c : Dev nD) : Vc m c main_arg1 = m ((c : Thread nD τ).loc main_arg1) :=
  (Wc_of m c main_arg1 (by decide)).trans (Wb_of_ne m c main_arg1 (by decide))

/-- After the first call its one-entry result holds the largest magnitude of the activations. -/
theorem Wb_main_v0 (c : Dev nD) :
    Wb m c (Proc.devRef .tc main_v0) = fun _ => Cert.Spec.amax (m ((c : Thread nD τ).loc main_arg0)) :=
  (Wb_arr m c 1).trans (amax_arr (Va m) c)

/-- The host operations leave in `main_v4` the per-tensor scale: the maximum divided by 448, floored at 1e-12. -/
theorem Vc_main_v4 (c : Dev nD) :
    (Vc m c main_v4 : S1x1.Idx → EReal) = fun _ => Cert.Spec.scale (m ((c : Thread nD τ).loc main_arg0)) := by
  have e : (Vc m c main_v4 : S1x1.Idx → EReal)
      = maximumf (Host.divf (Wb m c (Proc.devRef .tc main_v0)) (broadcastInDim S1x1 ![] bcast_S_S1x1 (constant (F := Ideal) S_ .f32 0x43E00000#32)))
          (broadcastInDim S1x1 ![] bcast_S_S1x1 (constant (F := Ideal) S_ .f32 0x2B8CBCCC#32)) := by
    show StableHlo.after hostOps1 (Wb m c) (Proc.devRef .tc main_v4) = _
    after_results
  rw [e, Wb_main_v0]
  rfl

/-- They leave in `main_v5` the bias laid out as one row. -/
theorem Vc_main_v5 (c : Dev nD) :
    (Vc m c main_v5 : S1x1024.Idx → EReal) = fun j => m ((c : Thread nD τ).loc main_arg2) (ix1 (j 1)) := by
  have e : (Vc m c main_v5 : S1x1024.Idx → EReal)
      = shapeCast S1x1024 (Wb m c (Proc.devRef .tc main_arg2)) shapeCasts_S1024_S1x1024 := by
    show StableHlo.after hostOps1 (Wb m c) (Proc.devRef .tc main_v5) = _
    after_results; rfl
  rw [e, Wb_of_ne m c main_arg2 (by decide)]
  funext j
  obtain ⟨u, i, rfl⟩ : ∃ (u : Fin 1) (i : Fin 1024), j = ix2 u i := ⟨j 0, j 1, eq_ix2 j⟩
  exact shapeCast_a_1a_apply _ _ u i

/-- THE VALUE: the result array after the run is the specification's function of the arguments as launched. -/
theorem result_eq (c : Dev nD) :
    (dat1 (F := Ideal) (Vc m) c).arrAt 4 cfg1.N
      = Cert.Spec.G (m ((c : Thread nD τ).loc main_arg0)) (m ((c : Thread nD τ).loc main_arg1)) (m ((c : Thread nD τ).loc main_arg2)) := by
  rw [lin_arr (Vc m) c, Vc_main_arg0, Vc_main_arg1, Vc_main_v4, Vc_main_v5, Cert.Spec.G_eq_linArr]
  rfl

end Cert.KernelIdeal.Hand

end
-- ==== Proof.RefFrame.lean ====
/-
  The reference program is host operations only: its frame is its run with the result forgotten.
-/
import proofs.«164014_j30777735643613_1_alg».proof.Defs
import proofs.«164014_j30777735643613_1_alg».proof.Proof.Gen.ReferenceIdeal.Run
import proofs.«164014_j30777735643613_1_alg».proof.Proof.Gen.ReferenceIdeal.Read
import proofs.«164014_j30777735643613_1_alg».proof.Proof.Gen.Pre_finite_inputs

noncomputable section

namespace Cert.Proof.RefFrame

open Idealize.ShloMosaic Idealize.SL.Sem

/-- Every weakly fair execution of the reference ends, faults nowhere and leaves the three argument arrays as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValue.lean ====
/-
  The reference's result, read one host operation at a time, is the specification's function of the three arguments.
-/
import proofs.«164014_j30777735643613_1_alg».proof.Proof.Gen.ReferenceIdeal.Read
import proofs.«164014_j30777735643613_1_alg».proof.Proof.Spec
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ### The two maxima

The reference takes its two maxima by a reduction over axes; each is a fold of `max` over a set of indices,
in any order.  Over both axes that set is every index; over the second axis alone, at row `o`, it is the row
`{(o, k) | k}`. -/

/-- The largest magnitude among all activations: the reduction over both axes folds over every index. -/
theorem amax_eq (x0 : (⟨S32768x1024, .f32⟩ : BufTy).Contents (Elt Ideal)) (j : S_.Idx) :
    val_main_v1 (F := Ideal) x0 j = Cert.Spec.amax x0 := by
  unfold val_main_v1
  rw [Host.reduce_eq_fold]
  rw [Finset.filter_true_of_mem (fun i _ => funext fun a => a.elim0)]
  rfl

/-- The weights' shape with its second axis removed is the shape of one entry per row. -/
theorem reduces_row : S1024x1024.Reduces [1] S1024 := by decide

/-- Row `o` with coordinate `k` put back on the removed axis is the index `(o, k)`. -/
theorem lift_row (h : S1024x1024.Reduces [1] S1024) (o k : Fin 1024) : h.lift (ix1 o) k = ix2 o k :=
  funext fun a => Fin.ext (by
    match a with
    | ⟨0, _⟩ => rfl
    | ⟨1, _⟩ => rfl)

/-- The largest magnitude in row `o` of the weights: the reduction over the second axis folds over the row. -/
theorem rowAmax_eq (x1 : (⟨S1024x1024, .f32⟩ : BufTy).Contents (Elt Ideal)) (o : Fin 1024) :
    val_main_v9 (F := Ideal) x1 (ix1 o) = Cert.Spec.rowAmax x1 o := by
  unfold val_main_v9
  rw [Host.reduce_eq_fold_single _ _ _ reducesTo_S1024x1024_S1024_d1 reduces_row]
  unfold Cert.Spec.rowAmax
  refine congrArg (fun g => Finset.fold _ _ g Finset.univ) (funext fun k => ?_)
  exact congrArg (fun i => FloatOps.absf (F := Ideal) (φ := .f32) (x1 i)) (lift_row reduces_row o k)

/-! ### The two scales -/

/-- The activations' scale: the maximum over 448, kept above the least scale. -/
theorem scale_eq (x0 : (⟨S32768x1024, .f32⟩ : BufTy).Contents (Elt Ideal)) (j : S_.Idx) :
    val_main_v3 (F := Ideal) x0 j = Cert.Spec.scale x0 := by
  rw [val_main_v3_apply, val_main_v2_apply, amax_eq, val_main_cst_0_apply, val_main_cst_1_apply]
  rfl

/-- The scale of row `o` of the weights: the row's maximum over 448, kept above the least scale. -/
theorem wscale_eq (x1 : (⟨S1024x1024, .f32⟩ : BufTy).Contents (Elt Ideal)) (o : Fin 1024) :
    val_main_v13 (F := Ideal) x1 (ix1 o) = Cert.Spec.wscale x1 o := by
  rw [val_main_v13_apply, val_main_v11_apply, rowAmax_eq, val_main_v10_apply, val_main_cst_5_apply,
    val_main_v12_apply, val_main_cst_6_apply]
  rfl

/-! ### The two quantised operands

Each entry is divided by its scale, clamped below by -448 and above by 448, and rounded half to even. -/

/-- A quantised activation: every entry is divided by the one scale. -/
theorem xq_eq (x0 : (⟨S32768x1024, .f32⟩ : BufTy).Contents (Elt Ideal)) (i : S32768x1024.Idx) :
    val_main_v7 (F := Ideal) x0 i = Cert.Spec.quant (x0 i) (Cert.Spec.scale x0) := by
  rw [val_main_v7_apply, val_main_v6_apply, val_main_call0_v4_apply, val_main_call0_v3_apply, val_main_cst_3_apply,
    val_main_call0_v2_apply, val_main_call0_v1_apply, val_main_call0_v0_apply, val_main_cst_2_apply,
    val_main_v5_apply, val_main_v4_apply, scale_eq]
  rfl

/-- A quantised weight: entry `(o, k)` is divided by the scale of its row `o`, which the reference spreads
    first into a column and then along each row. -/
theorem wq_eq (x1 : (⟨S1024x1024, .f32⟩ : BufTy).Contents (Elt Ideal)) (o k : Fin 1024) :
    val_main_v18 (F := Ideal) x1 (ix2 o k) = Cert.Spec.quant (x1 (ix2 o k)) (Cert.Spec.wscale x1 o) := by
  have e : idx_main_v14 (idx_main_v15 (ix2 o k)) = ix1 o :=
    funext fun a => Fin.ext (by match a with | ⟨0, _⟩ => rfl)
  rw [val_main_v18_apply, val_main_v17_apply, val_main_call2_v4_apply, val_main_call2_v3_apply, val_main_cst_8_apply,
    val_main_call2_v2_apply, val_main_call2_v1_apply, val_main_call2_v0_apply, val_main_cst_7_apply,
    val_main_v16_apply, val_main_v15_apply, val_main_v14_apply, e, wscale_eq]
  rfl

/-! ### The product, its rescaling and the bias -/

/-- Entry `(t, o)` of the contraction: row `t` of the quantised activations against row `o` of the quantised
    weights. -/
theorem dot_eq (x0 : (⟨S32768x1024, .f32⟩ : BufTy).Contents (Elt Ideal)) (x1 : (⟨S1024x1024, .f32⟩ : BufTy).Contents (Elt Ideal))
    (t : Fin 32768) (o : Fin 1024) :
    val_main_v19 (F := Ideal) x0 x1 (ix2 t o)
      = ∑ k : Fin 1024, Cert.Spec.quant (x0 (ix2 t k)) (Cert.Spec.scale x0) * Cert.Spec.quant (x1 (ix2 o k)) (Cert.Spec.wscale x1 o) := by
  rw [val_main_v19_apply]
  refine Finset.sum_congr rfl fun k _ => ?_
  have el : lidx_main_v19 (ix2 t o) k = ix2 t k :=
    funext fun a => Fin.ext (by match a with | ⟨0, _⟩ => rfl | ⟨1, _⟩ => rfl)
  have er : ridx_main_v19 (ix2 t o) k = ix2 o k :=
    funext fun a => Fin.ext (by match a with | ⟨0, _⟩ => rfl | ⟨1, _⟩ => rfl)
  rw [el, er, xq_eq, wq_eq]

/-- The factor entry `(t, o)` is rescaled by: the activations' scale times the scale of row `o` of the weights,
    a row of 1024 spread down the 32768 rows. -/
theorem resc_eq (x0 : (⟨S32768x1024, .f32⟩ : BufTy).Contents (Elt Ideal)) (x1 : (⟨S1024x1024, .f32⟩ : BufTy).Contents (Elt Ideal))
    (t : Fin 32768) (o : Fin 1024) :
    val_main_v23 (F := Ideal) x0 x1 (ix2 t o) = Cert.Spec.scale x0 * Cert.Spec.wscale x1 o := by
  have e : idx_main_v22 (idx_main_v23 (ix2 t o)) = ix1 o :=
    funext fun a => Fin.ext (by match a with | ⟨0, _⟩ => rfl)
  rw [val_main_v23_apply, val_main_v22_apply, e, val_main_v21_apply, val_main_v20_apply, scale_eq, wscale_eq]
  rfl

/-- The bias at entry `(t, o)` is its entry `o`: a row of 1024 spread down the 32768 rows. -/
theorem bias_eq (x2 : (⟨S1024, .f32⟩ : BufTy).Contents (Elt Ideal)) (t : Fin 32768) (o : Fin 1024) :
    val_main_v26 (F := Ideal) x2 (ix2 t o) = x2 (ix1 o) := by
  rw [val_main_v26_apply, val_main_v25_apply]
  exact congrArg x2 (funext fun a => Fin.ext (by match a with | ⟨0, _⟩ => rfl))

/-- The reference's result array is `Cert.Spec.G` of its three argument arrays. -/
theorem ref_is_G (x0 : (⟨S32768x1024, .f32⟩ : BufTy).Contents (Elt Ideal)) (x1 : (⟨S1024x1024, .f32⟩ : BufTy).Contents (Elt Ideal))
    (x2 : (⟨S1024, .f32⟩ : BufTy).Contents (Elt Ideal)) :
    val_main_v27 (F := Ideal) x0 x1 x2 = Cert.Spec.G x0 x1 x2 := by
  funext i
  obtain ⟨t, o, rfl⟩ : ∃ (t : Fin 32768) (o : Fin 1024), i = ix2 t o := ⟨i 0, i 1, eq_ix2 i⟩
  rw [val_main_v27_apply, val_main_v24_apply, dot_eq, resc_eq, bias_eq]
  rfl

end Cert.ReferenceIdeal.RefValue

end
-- ==== Proof.lean ====
/-
  The five claims.

  Both kernel programs (the word-level one and its idealization are one text) run two pipelined calls around seven
  host operations: the first call reduces |x| to its maximum over sixteen row tiles, the host operations turn it into
  the per-tensor scale `max (amax / 448) 1e-12` and lay the bias out as a row, the second call quantises a tile of x and
  the whole weight matrix, multiplies them, rescales and adds the bias, tile by tile.  Each frame is the run of these
  three items with every buffer's contents named between them: the arguments are written by none.  The reference is
  host operations only; its frame is its run with the result forgotten.  No operation was rewritten by the ideal pass.

  Over the extended reals both results are one function of the arguments, `Cert.Spec.G`: the kernel's tiled running
  maximum and the reference's one reduction are the same lattice maximum; the matrix unit's product into a zero
  accumulator and the host's contraction are the same finite sum; everything else is the same operation entry by
  entry, with the same literal words on both sides.
-/
import proofs.«164014_j30777735643613_1_alg».proof.Defs
import proofs.«164014_j30777735643613_1_alg».proof.Proof.Gen.Kernel
import proofs.«164014_j30777735643613_1_alg».proof.Proof.Gen.KernelIdeal
import proofs.«164014_j30777735643613_1_alg».proof.Proof.Gen.ReferenceIdeal
import proofs.«164014_j30777735643613_1_alg».proof.Proof.Gen.Pre_finite_inputs
import proofs.«164014_j30777735643613_1_alg».proof.Proof.K.Run
import proofs.«164014_j30777735643613_1_alg».proof.Proof.KI.Run
import proofs.«164014_j30777735643613_1_alg».proof.Proof.KI.Value
import proofs.«164014_j30777735643613_1_alg».proof.Proof.RefFrame
import proofs.«164014_j30777735643613_1_alg».proof.Proof.RefValue
import Idealize.ShloMosaic.Adequacy
import Idealize.ShloMosaic.Init

noncomputable section

namespace Cert.Proof

open Idealize.ShloMosaic Idealize.SL.Sem

/-- The word-level kernel program runs to the end and leaves its three arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- Over the extended reals, from memories agreeing on the arguments, both programs end with the result
    `Cert.Spec.G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.result_eq m c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, Cert.ReferenceIdeal.RefValue.ref_is_G,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
